-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1000000x64 : Shape := ⟨2, ![1000000, 64]⟩
abbrev S1000000 : Shape := ⟨1, ![1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg3 : IVec S1000000 32) (main_v28 : IVec S_ 1) (main_v33 : IVec S1000000 1) : IVec S_ 1 :=
  let main_c_12 : IVec S_ 1 := constantI S_ 1 1#1
  let main_v34 : IVec S_ 1 := (fun x v => Host.reduce IntOp.andi x v reducesTo_S1000000_S_d0 h_S_) main_v33 main_c_12
  let main_v35 : IVec S_ 1 := andi main_v28 main_v34
  let main_c_13 : IVec S_ 32 := constantI S_ 32 4294917296#32
  let main_v36 : IVec S1000000 32 := broadcastInDim S1000000 ![] bcast_S_S1000000 main_c_13
  let main_v37 : IVec S1000000 1 := cmpi .sge main_arg3 main_v36
  let main_c_14 : IVec S_ 32 := constantI S_ 32 50000#32
  let main_v38 : IVec S1000000 32 := broadcastInDim S1000000 ![] bcast_S_S1000000 main_c_14
  let main_v39 : IVec S1000000 1 := cmpi .slt main_arg3 main_v38
  let main_v40 : IVec S1000000 1 := andi main_v37 main_v39
  let main_c_15 : IVec S_ 1 := constantI S_ 1 1#1
  let main_v41 : IVec S_ 1 := (fun x v => Host.reduce IntOp.andi x v reducesTo_S1000000_S_d0 h_S_) main_v40 main_c_15
  let main_v42 : IVec S_ 1 := andi main_v35 main_v41
  main_v42

def fn_part1 {F : FTy → Type} [FloatOps F] (main_arg2 : IVec S1000000 32) (main_arg3 : IVec S1000000 32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 4294917296#32
  let main_v29 : IVec S1000000 32 := broadcastInDim S1000000 ![] bcast_S_S1000000 main_c_10
  let main_v30 : IVec S1000000 1 := cmpi .sge main_arg2 main_v29
  let main_c_11 : IVec S_ 32 := constantI S_ 32 50000#32
  let main_v31 : IVec S1000000 32 := broadcastInDim S1000000 ![] bcast_S_S1000000 main_c_11
  let main_v32 : IVec S1000000 1 := cmpi .slt main_arg2 main_v31
  let main_v33 : IVec S1000000 1 := andi main_v30 main_v32
  fn_part2 (F := F) main_arg3 main_v28 main_v33

def fn {F : FTy → Type} [FloatOps F] (main_arg0 : FVec F S50000x64 .f32) (main_arg1 : FVec F S1000000x64 .f32) (main_arg2 : IVec S1000000 32) (main_arg3 : IVec S1000000 32) (main_arg4 : FVec F S192x128 .f32) (main_arg5 : FVec F S128 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_v13 main_v16
-- ==== Kernel.lean ====
abbrev S50000x64 : Shape := ⟨2, ![50000, 64]⟩
abbrev S1000000x64 : Shape := ⟨2, ![1000000, 64]⟩
abbrev S1000000 : Shape := ⟨1, ![1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S64x128 : Shape := ⟨2, ![64, 128]⟩
abbrev S8000x64 : Shape := ⟨2, ![8000, 64]⟩
abbrev S8000x128 : Shape := ⟨2, ![8000, 128]⟩
abbrev S1x128 : Shape := ⟨2, ![1, 128]⟩
abbrev S1x64 : Shape := ⟨2, ![1, 64]⟩

abbrev nBuf : Space → Nat
  | .hbm => 58
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1, .i32⟩
  | .hbm, ⟨17, _⟩ => ⟨S_, .i32⟩
  | .hbm, ⟨18, _⟩ => ⟨S1000000x1, .i32⟩
  | .hbm, ⟨19, _⟩ => ⟨S1000000x1, .i1⟩
  | .hbm, ⟨20, _⟩ => ⟨S1x1, .i32⟩
  | .hbm, ⟨21, _⟩ => ⟨S1000000x1, .i32⟩
  | .hbm, ⟨22, _⟩ => ⟨S1000000x1, .i1⟩
  | .hbm, ⟨23, _⟩ => ⟨S1000000x1, .i1⟩
  | .hbm, ⟨24, _⟩ => ⟨S_, .i1⟩
  | .hbm, ⟨25, _⟩ => ⟨S1000000, .i1⟩
  | .hbm, ⟨26, _⟩ => ⟨S1000000x64, .f32⟩
  | .hbm, ⟨27, _⟩ => ⟨S1000000x64, .i1⟩
  | .hbm, ⟨28, _⟩ => ⟨S_, .f32⟩
  | .hbm, ⟨29, _⟩ => ⟨S1000000x64, .f32⟩
  | .hbm, ⟨30, _⟩ => ⟨S1000000x64, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1, .i32⟩
  | .hbm, ⟨40, _⟩ => ⟨S_, .i32⟩
  | .hbm, ⟨41, _⟩ => ⟨S1000000x1, .i32⟩
  | .hbm, ⟨42, _⟩ => ⟨S1000000x1, .i1⟩
  | .hbm, ⟨43, _⟩ => ⟨S1x1, .i32⟩
  | .hbm, ⟨44, _⟩ => ⟨S1000000x1, .i32⟩
  | .hbm, ⟨45, _⟩ => ⟨S1000000x1, .i1⟩
  | .hbm, ⟨46, _⟩ => ⟨S1000000x1, .i1⟩
  | .hbm, ⟨47, _⟩ => ⟨S_, .i1⟩
  | .hbm, ⟨48, _⟩ => ⟨S1000000, .i1⟩
  | .hbm, ⟨49, _⟩ => ⟨S1000000x64, .f32⟩
  | .hbm, ⟨50, _⟩ => ⟨S1000000x64, .i1⟩
  | .hbm, ⟨51, _⟩ => ⟨S_, .f32⟩
  | .hbm, ⟨52, _⟩ => ⟨S1000000x64, .f32⟩
  | .hbm, ⟨53, _⟩ => ⟨S1000000x64, .f32⟩
  | .hbm, ⟨54, _⟩ => ⟨S64x128, .f32⟩
  | .hbm, ⟨55, _⟩ => ⟨S64x128, .f32⟩
  | .hbm, ⟨56, _⟩ => ⟨S64x128, .f32⟩
  | .hbm, ⟨57, _⟩ => ⟨S1000000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S8000x64, .f32⟩
  | .local _ .vmem, ⟨13, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S192x128_S64x128_0_0 : S192x128.Slices ![0, 0] S64x128
  slices_S192x128_S64x128_64_0 : S192x128.Slices ![64, 0] S64x128
  slices_S192x128_S64x128_128_0 : S192x128.Slices ![128, 0] S64x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  gather_S50000x64_S1000000x1_S1000000x64_1_0_n_n_0_1_164_wf : GatherDims.WF S50000x64 S1000000x1 S1000000x64 [1] [0] [] [0] [] 1 ![1, 64]
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .f32 = 32 ∨ (Rect.block (s := S1000000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S1000000x64.size a
  hwx0_9 : ∀ i : grid0.Coords, EltTy.bits .f32 = 32 ∨ (Rect.block (s := S1000000x64) S8000x64.size (cc0_transform_9 i) (hinb0_9 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_v0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S1000000x64 : Shape := ⟨2, ![1000000, 64]⟩
abbrev S1000000 : Shape := ⟨1, ![1000000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1000000x192 : Shape := ⟨2, ![1000000, 192]⟩
abbrev S1000000x128 : Shape := ⟨2, ![1000000, 128]⟩
abbrev S1x128 : Shape := ⟨2, ![1, 128]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x192, .f32⟩
  | .hbm, ⟨27, _⟩ => ⟨S1000000x128, .f32⟩
  | .hbm, ⟨28, _⟩ => ⟨S1x128, .f32⟩
  | .hbm, ⟨29, _⟩ => ⟨S1000000x128, .f32⟩
  | .hbm, ⟨30, _⟩ => ⟨S1000000x128, .f32⟩
  | .hbm, ⟨31, _⟩ => ⟨S_, .f32⟩
  | .hbm, ⟨32, _⟩ => ⟨S1000000x128, .f32⟩
  | .hbm, ⟨33, _⟩ => ⟨S1000000x128, .f32⟩
  | .hbm, ⟨34, _⟩ => ⟨S1000000x128, .f32⟩
  | .hbm, ⟨35, _⟩ => ⟨S1000000x128, .f32⟩
  | .hbm, ⟨36, _⟩ => ⟨S1000000x128, .i1⟩
  | .hbm, ⟨37, _⟩ => ⟨S1000000x128, .f32⟩
  | .hbm, ⟨38, _⟩ => ⟨S1000000x128, .f32⟩
  | .hbm, ⟨39, _⟩ => ⟨S1000000x128, .f32⟩
  | .hbm, ⟨40, _⟩ => ⟨S1000000x128, .f32⟩
  | .hbm, ⟨41, _⟩ => ⟨S1000000x128, .f32⟩
  | .hbm, ⟨42, _⟩ => ⟨S1000000x128, .f32⟩
  | .hbm, ⟨43, _⟩ => ⟨S1000000x128, .f32⟩
  | .hbm, ⟨44, _⟩ => ⟨S1000000x128, .f32⟩
  | .hbm, ⟨45, _⟩ => ⟨S1000000x64, .f32⟩
  | .hbm, ⟨46, _⟩ => ⟨S1x64, .f32⟩
  | .hbm, ⟨47, _⟩ => ⟨S1000000x64, .f32⟩
  | .hbm, ⟨48, _⟩ => ⟨S1000000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S50000x64_S1000000x1_S1000000x64_1_0_n_n_0_1_164_wf : GatherDims.WF S50000x64 S1000000x1 S1000000x64 [1] [0] [] [0] [] 1 ![1, 64]
  dot_S1000000x192_S192x128_S1000000x128_1_0_0_1_n_n_wf : DotDims.WF S1000000x192 S192x128 S1000000x128 [1] [0] [0] [1] [] []
  dot_S1000000x128_S128x64_S1000000x64_1_0_0_1_n_n_wf : DotDims.WF S1000000x128 S128x64 S1000000x64 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x192_S192x128_S1000000x128_1_0_0_1_n_n : DotDims S1000000x192 S192x128 S1000000x128 where
  lhsContracting := [1]
  rhsContracting := [0]
  lhsNonContracting := [0]
  rhsNonContracting := [1]
  lhsBatch := []
  rhsBatch := []
  wf := dot_S1000000x192_S192x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«407755_j44590350467103_1_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.Spec.lean ====
/-
  The edge network as a function of indices.

  An edge's output row is a two-layer perceptron of three 64-entry rows (the source node's features, the target
  node's features, the edge's own features): the three rows times three 64 × 128 weight blocks, summed, plus a bias
  row, through softplus, times a 128 × 64 weight matrix, plus a second bias row.  Softplus is taken in the form that
  cannot overflow, max x 0 + log (1 + e^(-|x|)).

  Two facts about it are proved here.  It is ROW-LOCAL: row p of the result depends only on row p of each of the three
  feature matrices, so the network applied to a band of rows is that band of the network applied to all rows.  And the
  product of a 192-column matrix with a 192 × 128 weight matrix is the sum of the three products of its 64-column
  thirds with the weight matrix's 64-row thirds: a finite sum over 192 = 64 + 64 + 64 terms regrouped, which holds on
  the extended reals as it stands (addition there is commutative and associative at the infinities too).
-/
import proofs.«407755_j44590350467103_1_alg».proof.Proof.LibDenseForms

noncomputable section

open scoped BigOperators

namespace EdgeMlp

open Idealize.ShloMosaic Idealize.ShloMosaic.ValueIdx DenseRows

/-! ## Softplus -/

/-- Softplus of an extended real, in the form max x 0 + log (1 + e^(-|x|)), with |x| = max x (-x). -/
def sp (x : EReal) : EReal := max x 0 + Ideal.log1p (Ideal.exp (-(max x (-x))))

/-- Softplus, entry by entry. -/
def softplus {m n : Nat} (Z : Mat m n) : Mat m n := fun i => sp (Z i)

theorem softplus_rows {m M n : Nat} (X : Mat m n) (A : Mat M n) (p : Fin m) (P : Fin M)
    (h : ∀ c, X (ix2 p c) = A (ix2 P c)) (q : Fin n) : softplus X (ix2 p q) = softplus A (ix2 P q) := by
  show sp (X (ix2 p q)) = sp (A (ix2 P q))
  rw [h q]

/-- No extended real differs from itself. -/
theorem cmp_one_self (x : EReal) : Ideal.cmp .one x x = 0#1 := by
  simp [Ideal.cmp]

theorem cmp_une_self (x : EReal) : Ideal.cmp .une x x = 0#1 := by
  simp [Ideal.cmp]

/-- The vector unit's softplus: the guard x - 0 ≠ x - 0 never holds, and what is left is
    max x 0 + log (1 + e^(0 - |x - 0|)). -/
theorem softplus_vector_form {m n : Nat} (Z : Mat m n) :
    select
      (cmpf .one (subf Z (broadcast (⟨2, ![m, n]⟩ : Shape) (Scalar.ofBits (F := Ideal) .f32 0x00000000#32)))
        (subf Z (broadcast (⟨2, ![m, n]⟩ : Shape) (Scalar.ofBits (F := Ideal) .f32 0x00000000#32))))
      (addf Z (broadcast (⟨2, ![m, n]⟩ : Shape) (Scalar.ofBits (F := Ideal) .f32 0x00000000#32)))
      (addf (maximumf Z (broadcast (⟨2, ![m, n]⟩ : Shape) (Scalar.ofBits (F := Ideal) .f32 0x00000000#32)))
        (log1p (exp (subf (broadcast (⟨2, ![m, n]⟩ : Shape) (Scalar.ofBits (F := Ideal) .f32 0x00000000#32))
          (absf (subf Z (broadcast (⟨2, ![m, n]⟩ : Shape) (Scalar.ofBits (F := Ideal) .f32 0x00000000#32))))))))
      = softplus Z := by
  funext i
  show Scalar.select (Ideal.cmp .one (Z i - Ideal.ofBits .f32 0x00000000#32) (Z i - Ideal.ofBits .f32 0x00000000#32))
      (Z i + Ideal.ofBits .f32 0x00000000#32)
      (max (Z i) (Ideal.ofBits .f32 0x00000000#32) + Ideal.log1p (Ideal.exp (Ideal.ofBits .f32 0x00000000#32
        - max (Z i - Ideal.ofBits .f32 0x00000000#32) (-(Z i - Ideal.ofBits .f32 0x00000000#32)))))
    = sp (Z i)
  rw [cmp_one_self, Ideal.ofBits_zero_f32, sub_zero, zero_sub]
  rfl

/-- The host's softplus: the same guard, never taken, and max x 0 + log (1 + e^(-|x - 0|)). -/
theorem softplus_host_form {m n : Nat} (Z : Mat m n)
    (hb : (⟨0, ![]⟩ : Shape).BroadcastsInDim ⟨2, ![m, n]⟩ ![]) :
    select
      (cmpf .une (subf Z (broadcastInDim (⟨2, ![m, n]⟩ : Shape) ![] hb (constant (⟨0, ![]⟩ : Shape) .f32 0x00000000#32)))
        (subf Z (broadcastInDim (⟨2, ![m, n]⟩ : Shape) ![] hb (constant (⟨0, ![]⟩ : Shape) .f32 0x00000000#32))))
      (addf Z (broadcastInDim (⟨2, ![m, n]⟩ : Shape) ![] hb (constant (⟨0, ![]⟩ : Shape) .f32 0x00000000#32)))
      (addf (maximumf Z (broadcastInDim (⟨2, ![m, n]⟩ : Shape) ![] hb (constant (⟨0, ![]⟩ : Shape) .f32 0x00000000#32)))
        (Host.log1p (Host.exp (Host.negf (Host.absf
          (subf Z (broadcastInDim (⟨2, ![m, n]⟩ : Shape) ![] hb (constant (⟨0, ![]⟩ : Shape) .f32 0x00000000#32))))))))
      = softplus Z := by
  funext i
  show Scalar.select (Ideal.cmp .une (Z i - Ideal.ofBits .f32 0x00000000#32) (Z i - Ideal.ofBits .f32 0x00000000#32))
      (Z i + Ideal.ofBits .f32 0x00000000#32)
      (max (Z i) (Ideal.ofBits .f32 0x00000000#32) + Ideal.log1p (Ideal.exp
        (-(max (Z i - Ideal.ofBits .f32 0x00000000#32) (-(Z i - Ideal.ofBits .f32 0x00000000#32))))))
    = sp (Z i)
  rw [cmp_une_self, Ideal.ofBits_zero_f32, sub_zero]
  rfl

/-! ## The network -/

/-- The sum of the three first-layer products. -/
def mm3 {m : Nat} (hs hd ef : Mat m 64) (Ws Wd We : Mat 64 128) : Mat m 128 :=
  fun i => mm hs Ws i + mm hd Wd i + mm ef We i

/-- The network: three products summed, a bias row, softplus, a product, a bias row. -/
def mlp {m : Nat} (hs hd ef : Mat m 64) (Ws Wd We : Mat 64 128) (b1 : Col 128) (W2 : Mat 128 64) (b2 : Col 64) :
    Mat m 64 :=
  addRow (mm (softplus (addRow (mm3 hs hd ef Ws Wd We) (asRow b1))) W2) (asRow b2)

theorem mm3_rows {m M : Nat} (hs hd ef : Mat m 64) (HS HD EF : Mat M 64) (Ws Wd We : Mat 64 128) (p : Fin m) (P : Fin M)
    (h1 : ∀ c, hs (ix2 p c) = HS (ix2 P c)) (h2 : ∀ c, hd (ix2 p c) = HD (ix2 P c))
    (h3 : ∀ c, ef (ix2 p c) = EF (ix2 P c)) (q : Fin 128) :
    mm3 hs hd ef Ws Wd We (ix2 p q) = mm3 HS HD EF Ws Wd We (ix2 P q) := by
  show mm hs Ws (ix2 p q) + mm hd Wd (ix2 p q) + mm ef We (ix2 p q)
    = mm HS Ws (ix2 P q) + mm HD Wd (ix2 P q) + mm EF We (ix2 P q)
  rw [mm_rows hs HS Ws p P h1 q, mm_rows hd HD Wd p P h2 q, mm_rows ef EF We p P h3 q]

/-- Row p of the network on matrices whose rows p are rows P of larger ones is row P of the network on those. -/
theorem mlp_rows {m M : Nat} (hs hd ef : Mat m 64) (HS HD EF : Mat M 64) (Ws Wd We : Mat 64 128) (b1 : Col 128)
    (W2 : Mat 128 64) (b2 : Col 64) (p : Fin m) (P : Fin M)
    (h1 : ∀ c, hs (ix2 p c) = HS (ix2 P c)) (h2 : ∀ c, hd (ix2 p c) = HD (ix2 P c))
    (h3 : ∀ c, ef (ix2 p c) = EF (ix2 P c)) (q : Fin 64) :
    mlp hs hd ef Ws Wd We b1 W2 b2 (ix2 p q) = mlp HS HD EF Ws Wd We b1 W2 b2 (ix2 P q) := by
  unfold mlp
  refine addRow_rows _ _ _ p P (fun c => ?_) q
  refine mm_rows _ _ _ p P (fun c => ?_) c
  refine softplus_rows _ _ p P (fun c => ?_) c
  exact addRow_rows _ _ _ p P (fun c => mm3_rows hs hd ef HS HD EF Ws Wd We p P h1 h2 h3 c) c

/-! ## A 192-term contraction in three 64-term parts -/

/-- A sum over 192 terms is the sum of its first 64, its next 64 and its last 64 terms. -/
theorem sum_192 (f : Fin 192 → EReal) :
    ∑ c : Fin 192, f c
      = ∑ k : Fin 64, f ⟨k.val, by have := k.isLt; omega⟩ + ∑ k : Fin 64, f ⟨64 + k.val, by have := k.isLt; omega⟩
        + ∑ k : Fin 64, f ⟨128 + k.val, by have := k.isLt; omega⟩ := by
  have e1 : ∑ c : Fin 192, f c = ∑ c : Fin (128 + 64), f c := rfl
  rw [e1, Fin.sum_univ_add]
  have e2 : ∑ c : Fin 128, f (Fin.castAdd 64 c) = ∑ c : Fin (64 + 64), f (Fin.castAdd 64 c) := rfl
  rw [e2, Fin.sum_univ_add]
  rfl

/-- The product of a matrix whose 192 columns are those of A, B and C side by side with a matrix whose 192 rows are
    those of Ws, Wd and We stacked is the sum of the three products. -/
theorem mm_thirds {m : Nat} (X : Mat m 192) (A B C : Mat m 64) (W : Mat 192 128) (Ws Wd We : Mat 64 128)
    (hA : ∀ (a : Fin m) (k : Fin 64) (k' : Fin 192), k'.val = k.val → X (ix2 a k') = A (ix2 a k))
    (hB : ∀ (a : Fin m) (k : Fin 64) (k' : Fin 192), k'.val = 64 + k.val → X (ix2 a k') = B (ix2 a k))
    (hC : ∀ (a : Fin m) (k : Fin 64) (k' : Fin 192), k'.val = 128 + k.val → X (ix2 a k') = C (ix2 a k))
    (hWs : ∀ (k : Fin 64) (k' : Fin 192) (b : Fin 128), k'.val = k.val → W (ix2 k' b) = Ws (ix2 k b))
    (hWd : ∀ (k : Fin 64) (k' : Fin 192) (b : Fin 128), k'.val = 64 + k.val → W (ix2 k' b) = Wd (ix2 k b))
    (hWe : ∀ (k : Fin 64) (k' : Fin 192) (b : Fin 128), k'.val = 128 + k.val → W (ix2 k' b) = We (ix2 k b)) :
    mm X W = mm3 A B C Ws Wd We := by
  funext i
  obtain ⟨a, b, rfl⟩ : ∃ (a : Fin m) (b : Fin 128), i = ix2 a b := ⟨i 0, i 1, eq_ix2 i⟩
  show mm X W (ix2 a b) = mm A Ws (ix2 a b) + mm B Wd (ix2 a b) + mm C We (ix2 a b)
  rw [mm_apply, mm_apply, mm_apply, mm_apply, sum_192]
  congr 1
  · congr 1
    · exact Finset.sum_congr rfl fun k _ => by rw [hA a k _ rfl, hWs k _ b rfl]
    · exact Finset.sum_congr rfl fun k _ => by rw [hB a k _ rfl, hWd k _ b rfl]
  · exact Finset.sum_congr rfl fun k _ => by rw [hC a k _ rfl, hWe k _ b rfl]

end EdgeMlp

end
-- ==== Proof.Index.lean ====
/-
  Which table row an index word reads, and which rows of the first weight matrix each feature block meets.

  An index word below zero counts back from the table's end: 50000 is added to it (in 32-bit arithmetic).  The word
  so wrapped, read as a signed integer, is then clamped to the table's rows 0 … 49999; that row of the node table is
  the row gathered.  A word w with -50000 ≤ w < 50000 is IN RANGE: its wrapped value is a row number already, so
  that the clamp changes nothing and a test "0 ≤ wrapped ≤ 49999" succeeds.
-/
import proofs.«407755_j44590350467103_1_alg».proof.Proof.Spec

noncomputable section

namespace EdgeMlp

open Idealize.ShloMosaic Idealize.ShloMosaic.ValueIdx DenseRows

/-- A vector of a million 32-bit index words. -/
abbrev Words : Type := IVec (⟨1, ![1000000]⟩ : Shape) 32

/-- A negative index word has 50000 added to it; another is kept. -/
def wrap (x : BitVec 32) : BitVec 32 := Scalar.select (IntOp.cmpi .slt x 0#32) (IntOp.addi x 50000#32) x

/-- The table row an index word reads: its wrapped value, as a signed integer, clamped to 0 … 49999. -/
def rowOf (x : BitVec 32) : Fin 50000 := ⟨min (wrap x).toInt.toNat 49999, by omega⟩

/-- The rows of the node table that a million index words read, one result row per word. -/
def gatherRows (nf : Mat 50000 64) (idx : Words) : Mat 1000000 64 :=
  fun i => nf (ix2 (rowOf (idx (ix1 (i 0)))) (i 1))

/-- Every word is a valid row number of a 50000-row table, counted from the front or (negative) from the back. -/
def InRange (idx : Words) : Prop :=
  ∀ e : Fin 1000000, -50000 ≤ (idx (ix1 e)).toInt ∧ (idx (ix1 e)).toInt < 50000

/-- The 64 rows of a 192-row matrix from row o on. -/
def rowsFrom (o : Nat) (ho : o + 64 ≤ 192) (W : Mat 192 128) : Mat 64 128 :=
  fun i => W (ix2 ⟨o + (i 0).val, by have h : (i 0).val < 64 := (i 0).isLt; omega⟩ (i 1))

end EdgeMlp

end
-- ==== Proof.PreDecode.lean ====
/-
  The precondition, read back: besides the finiteness of the float inputs it says that every word of the two index
  vectors is at least -50000 and below 50000.
-/
import proofs.«407755_j44590350467103_1_alg».proof.Proof.Index
import proofs.«407755_j44590350467103_1_alg».proof.Proof.Gen.Pre_finite_inputs
import Idealize.ShloMosaic.Lib.StableHlo.Predicate
import Idealize.ShloMosaic.Lib.ReduceAll

noncomputable section

namespace EdgeMlp

open Idealize.ShloMosaic Idealize.ShloMosaic.ValueIdx DenseRows Cert.Pre_finite_inputs Cert.Pre_finite_inputs.Gen

/-- The scalar shape has one index. -/
private instance : Subsingleton S_.Idx := ⟨fun _ _ => funext fun d => d.elim0⟩

/-- A vector of words whose tests "-50000 ≤ w" and "w < 50000" all succeed is in range. -/
private theorem inRange_of_bits (hb : S_.BroadcastsInDim S1000000 (![] : Fin 0 → Fin S1000000.rank)) (a : IVec S1000000 32)
    (ha : ∀ i, andi (cmpi .sge a (broadcastInDim S1000000 ![] hb (constantI S_ 32 4294917296#32)))
      (cmpi .slt a (broadcastInDim S1000000 ![] hb (constantI S_ 32 50000#32))) i = 1#1) : InRange a := by
  intro e
  have h := ha (ix1 e)
  -- at entry e the two tests compare word e with the two constants
  change IntOp.andi (IntOp.cmpi .sge (a (ix1 e)) 4294917296#32) (IntOp.cmpi .slt (a (ix1 e)) 50000#32) = 1#1 at h
  rw [IntOp.andi_eq_one, IntOp.cmpi_sge, IntOp.cmpi_slt,
    show (4294917296#32 : BitVec 32).toInt = -50000 from by decide,
    show (50000#32 : BitVec 32).toInt = 50000 from by decide] at h
  exact h

/-- Where the precondition is all ones, both index vectors are in range. -/
theorem pre_inRange (a0 : FVec Ideal S50000x64 .f32) (a1 : FVec Ideal S1000000x64 .f32) (a2 a3 : IVec S1000000 32)
    (a4 : FVec Ideal S192x128 .f32) (a5 : FVec Ideal S128 .f32) (a6 : FVec Ideal S128x64 .f32) (a7 : FVec Ideal S64 .f32)
    (h : Cert.Pre_finite_inputs.fn (F := Ideal) a0 a1 a2 a3 a4 a5 a6 a7 = (fun _ => 1#1)) :
    InRange a2 ∧ InRange a3 := by
  -- the result is a conjunction, and its last two conjuncts are the "all" of the two vectors' tests
  have h1 := congrFun h ix0
  dsimp only [Cert.Pre_finite_inputs.fn, Cert.Pre_finite_inputs.fn_part1, Cert.Pre_finite_inputs.fn_part2] at h1
  obtain ⟨h35, h41⟩ := IntOp.andi_eq_one.1 h1
  obtain ⟨-, h34⟩ := IntOp.andi_eq_one.1 h35
  exact ⟨inRange_of_bits _ a2 (Host.reduce_andi_all _ _ _ _ ix0 h34),
    inRange_of_bits _ a3 (Host.reduce_andi_all _ _ _ _ ix0 h41)⟩

end EdgeMlp

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«407755_j44590350467103_1_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.Ranges.lean ====
/-
  The index words, wrapped and tested.

  Both programs wrap a negative index word by adding 50000 and hand the wrapped words, as a column, to a row gather
  that clamps: the gathered rows are gatherRows.  One of the programs also tests each wrapped word against 0 and
  49999 and replaces a row whose test fails by a filler; for index words in range every test succeeds, so the
  filler is never used.
-/
import proofs.«407755_j44590350467103_1_alg».proof.Proof.Index
import proofs.«407755_j44590350467103_1_alg».proof.Proof.LibGatherClamp
import Idealize.ShloMosaic.Lib.StableHlo.Predicate
import Idealize.ShloMosaic.Lib.ReduceAll

noncomputable section

namespace EdgeMlp

open Idealize.ShloMosaic Idealize.ShloMosaic.ValueIdx DenseRows

/-- A word in range, wrapped, is a row number. -/
theorem wrap_inb (x : BitVec 32) (h : -50000 ≤ x.toInt ∧ x.toInt < 50000) :
    0 ≤ (wrap x).toInt ∧ (wrap x).toInt ≤ 49999 := by
  have h0 : (0#32 : BitVec 32).toInt = 0 := by decide
  have h5 : (50000#32 : BitVec 32).toInt = 50000 := by decide
  unfold wrap
  by_cases hc : IntOp.cmpi .slt x 0#32 = 1#1
  · -- a negative word: 50000 is added, and the sum does not leave the signed range
    have hlt : x.toInt < 0 := by
      have := IntOp.cmpi_slt.1 hc
      rw [h0] at this
      exact this
    rw [hc, select_one]
    show 0 ≤ (x + 50000#32).toInt ∧ (x + 50000#32).toInt ≤ 49999
    rw [BitVec.toInt_add, h5]
    simp only [Int.bmod]
    omega
  · -- a word that is not negative is kept
    have hge : 0 ≤ x.toInt := by
      have := mt IntOp.cmpi_slt.2 hc
      rw [h0] at this
      omega
    rw [eq_zero_of_ne_one hc, select_zero]
    omega

/-- The wrapped words as a column, in the operations that make it. -/
abbrev wrapCol (h0 : (⟨0, ![]⟩ : Shape).BroadcastsInDim ⟨1, ![1000000]⟩ ![])
    (h1 : (⟨1, ![1000000]⟩ : Shape).BroadcastsInDim ⟨2, ![1000000, 1]⟩ ![0]) (idx : Words) :
    IVec (⟨2, ![1000000, 1]⟩ : Shape) 32 :=
  broadcastInDim (⟨2, ![1000000, 1]⟩ : Shape) ![0] h1
    (select (cmpi .slt idx (broadcastInDim (⟨1, ![1000000]⟩ : Shape) ![] h0 (constantI (⟨0, ![]⟩ : Shape) 32 0#32)))
      (addi idx (broadcastInDim (⟨1, ![1000000]⟩ : Shape) ![] h0 (constantI (⟨0, ![]⟩ : Shape) 32 50000#32))) idx)

/-- A vector of a million entries laid along the rows of a rectangle keeps, at (p, q), its coordinate p. -/
private theorem keep0 {m : Nat} (p : Fin 1000000) (q : Fin m) :
    ∀ a : Fin (⟨1, ![1000000]⟩ : Shape).rank,
      ((ix1 p : (⟨1, ![1000000]⟩ : Shape).Idx) a).val
        = if (⟨1, ![1000000]⟩ : Shape).size a = 1 then 0
          else ((ix2 p q : (⟨2, ![1000000, m]⟩ : Shape).Idx) ((![0] : Fin 1 → Fin 2) a)).val := by
  intro a
  obtain rfl : a = 0 := Subsingleton.elim _ _
  show p.val = if (1000000 : ℕ) = 1 then 0 else p.val
  rw [if_neg (by omega)]

/-- Row e of the column is word e, wrapped. -/
theorem wrapCol_apply (h0 : (⟨0, ![]⟩ : Shape).BroadcastsInDim ⟨1, ![1000000]⟩ ![])
    (h1 : (⟨1, ![1000000]⟩ : Shape).BroadcastsInDim ⟨2, ![1000000, 1]⟩ ![0]) (idx : Words) (e : Fin 1000000) :
    wrapCol h0 h1 idx (ix2 e (0 : Fin 1)) = wrap (idx (ix1 e)) := by
  -- the column at (e, 0) is the vector at e; the vector's operations are entry by entry, the two broadcast
  -- scalars constant
  exact (broadcastInDim_apply ![0] h1 _ (ix2 e (0 : Fin 1)) (ix1 e) (keep0 e (0 : Fin 1))).trans rfl

/-- The clamping row gather of the wrapped column is gatherRows. -/
theorem gather_wrapCol (d : GatherDims (⟨2, ![50000, 64]⟩ : Shape) ⟨2, ![1000000, 1]⟩ ⟨2, ![1000000, 64]⟩)
    (hod : d.offsetDims = [1]) (hcoll : d.collapsedSliceDims = [0]) (hob : d.operandBatchingDims = [])
    (hsim : d.startIndexMap = [0]) (hivd : d.indexVectorDim = 1)
    (h0 : (⟨0, ![]⟩ : Shape).BroadcastsInDim ⟨1, ![1000000]⟩ ![])
    (h1 : (⟨1, ![1000000]⟩ : Shape).BroadcastsInDim ⟨2, ![1000000, 1]⟩ ![0])
    (nf : Mat 50000 64) (idx : Words) :
    Host.gather d nf (wrapCol h0 h1 idx) = gatherRows nf idx := by
  funext i
  obtain ⟨p, c, rfl⟩ : ∃ (p : Fin 1000000) (c : Fin 64), i = ix2 p c := ⟨i 0, i 1, eq_ix2 i⟩
  rw [Cert.Gcn.GatherClamp.gather2_clamp_apply (by omega) d hod hcoll hob hsim hivd nf (wrapCol h0 h1 idx) p c]
  simp only [wrapCol_apply]
  rfl

/-- A fold by "and" from 1 over bits that are all 1 is 1. -/
private theorem foldl_andi_ones {ι : Type} (f : ι → BitVec 1) (h : ∀ n, f n = 1#1) :
    ∀ l : List ι, l.foldl (fun r n => IntOp.andi r (f n)) 1#1 = 1#1
  | [] => rfl
  | a :: l => by
    rw [List.foldl_cons, h a, show IntOp.andi (1#1 : BitVec 1) 1#1 = 1#1 from by decide]
    exact foldl_andi_ones f h l

/-- With every word in range, the rows that pass the test "0 ≤ wrapped ≤ 49999" are all of them: the gather with
    failing rows replaced by a filler is the gather. -/
theorem take_fill (d : GatherDims (⟨2, ![50000, 64]⟩ : Shape) ⟨2, ![1000000, 1]⟩ ⟨2, ![1000000, 64]⟩)
    (hod : d.offsetDims = [1]) (hcoll : d.collapsedSliceDims = [0]) (hob : d.operandBatchingDims = [])
    (hsim : d.startIndexMap = [0]) (hivd : d.indexVectorDim = 1)
    (h0 : (⟨0, ![]⟩ : Shape).BroadcastsInDim ⟨1, ![1000000]⟩ ![])
    (h1 : (⟨1, ![1000000]⟩ : Shape).BroadcastsInDim ⟨2, ![1000000, 1]⟩ ![0])
    (h6 : (⟨0, ![]⟩ : Shape).BroadcastsInDim ⟨2, ![1000000, 1]⟩ ![])
    (h8 : (⟨1, ![1]⟩ : Shape).BroadcastsInDim ⟨2, ![1, 1]⟩ ![1])
    (h9 : (⟨2, ![1, 1]⟩ : Shape).BroadcastsInDim ⟨2, ![1000000, 1]⟩ ![0, 1])
    (hred : (⟨2, ![1000000, 1]⟩ : Shape).ReducesTo [1] ⟨1, ![1000000]⟩) (hS : 0 < (⟨0, ![]⟩ : Shape).numel)
    (h14 : (⟨1, ![1000000]⟩ : Shape).BroadcastsInDim ⟨2, ![1000000, 64]⟩ ![0])
    (h15 : (⟨0, ![]⟩ : Shape).BroadcastsInDim ⟨2, ![1000000, 64]⟩ ![])
    (nf : Mat 50000 64) (idx : Words) (hr : InRange idx) :
    select
      (broadcastInDim (⟨2, ![1000000, 64]⟩ : Shape) ![0] h14
        (Host.reduce IntOp.andi
          (andi
            (cmpi .sge (wrapCol h0 h1 idx)
              (broadcastInDim (⟨2, ![1000000, 1]⟩ : Shape) ![] h6 (constantI (⟨0, ![]⟩ : Shape) 32 0#32)))
            (cmpi .sle (wrapCol h0 h1 idx)
              (broadcastInDim (⟨2, ![1000000, 1]⟩ : Shape) ![0, 1] h9
                (broadcastInDim (⟨2, ![1, 1]⟩ : Shape) ![1] h8 (constantI (⟨1, ![1]⟩ : Shape) 32 49999#32)))))
          (constantI (⟨0, ![]⟩ : Shape) 1 1#1) hred hS))
      (Host.gather d nf (wrapCol h0 h1 idx))
      (broadcastInDim (⟨2, ![1000000, 64]⟩ : Shape) ![] h15 (constant (F := Ideal) (⟨0, ![]⟩ : Shape) .f32 0x7FC00000#32))
      = gatherRows nf idx := by
  -- every tested bit of the column is 1: the wrapped word is a row number
  have hbit : ∀ j : (⟨2, ![1000000, 1]⟩ : Shape).Idx,
      andi
        (cmpi .sge (wrapCol h0 h1 idx)
          (broadcastInDim (⟨2, ![1000000, 1]⟩ : Shape) ![] h6 (constantI (⟨0, ![]⟩ : Shape) 32 0#32)))
        (cmpi .sle (wrapCol h0 h1 idx)
          (broadcastInDim (⟨2, ![1000000, 1]⟩ : Shape) ![0, 1] h9
            (broadcastInDim (⟨2, ![1, 1]⟩ : Shape) ![1] h8 (constantI (⟨1, ![1]⟩ : Shape) 32 49999#32)))) j = 1#1 := by
    intro j
    obtain ⟨e, z, rfl⟩ : ∃ (e : Fin 1000000) (z : Fin 1), j = ix2 e z := ⟨j 0, j 1, eq_ix2 j⟩
    obtain rfl : z = 0 := Subsingleton.elim _ _
    show IntOp.andi (IntOp.cmpi .sge (wrapCol h0 h1 idx (ix2 e (0 : Fin 1))) 0#32)
      (IntOp.cmpi .sle (wrapCol h0 h1 idx (ix2 e (0 : Fin 1))) 49999#32) = 1#1
    have hw := wrap_inb (idx (ix1 e)) (hr e)
    rw [wrapCol_apply, IntOp.andi_eq_one, IntOp.cmpi_sge, IntOp.cmpi_sle,
      show (0#32 : BitVec 32).toInt = 0 from by decide, show (49999#32 : BitVec 32).toInt = 49999 from by decide]
    exact hw
  funext i
  obtain ⟨p, q, rfl⟩ : ∃ (p : Fin 1000000) (q : Fin 64), i = ix2 p q := ⟨i 0, i 1, eq_ix2 i⟩
  -- the mask, laid along the rows, reads at (p, q) the reduced bit of row p
  rw [select_apply, broadcastInDim_apply ![0] h14 _ (ix2 p q) (ix1 p) (keep0 p q), Host.reduce_eq_foldl]
  show Scalar.select (List.foldl _ 1#1 _) _ _ = _
  rw [foldl_andi_ones _ hbit, select_one, gather_wrapCol d hod hcoll hob hsim hivd h0 h1 nf idx]

end EdgeMlp

end
-- ==== Proof.KernelArrays.lean ====
/-
  The arrays the kernel's region finds.

  Before the region the program gathers the source and target rows of the node table (wrapping negative index words,
  clamping, and replacing a row whose wrapped word fails the test 0 ≤ w ≤ 49999 by a filler) and cuts the first weight
  matrix into its three 64-row blocks.  With the index words in range no row fails the test: the gathered arrays are
  gatherRows, and the three blocks are rowsFrom 0, 64 and 128.
-/
import proofs.«407755_j44590350467103_1_alg».proof.Proof.Index
import proofs.«407755_j44590350467103_1_alg».proof.Proof.Ranges
import proofs.«407755_j44590350467103_1_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem

namespace Cert.KernelIdeal.Arrays

open Cert.KernelIdeal Cert.KernelIdeal.Gen Idealize.ShloMosaic.ValueIdx DenseRows EdgeMlp

/-- Carrying a value to an equal type and back gives the value. -/
private theorem cast_cast_cancel {α β : Type} (h1 : β = α) (h2 : α = β) (v : α) : cast h1 (cast h2 v) = v := by
  subst h2
  rfl

/-- The 64-row slice of a 192-row matrix from row o on, all columns, is its block of rows from o on. -/
private theorem slice_rows (o : Nat) (ho : o + 64 ≤ 192) (W : Mat 192 128) (h : S192x128.Slices ![o, 0] S64x128) :
    extractStridedSlice S64x128 ![o, 0] W h = rowsFrom o ho W := by
  funext i
  obtain ⟨p, q, rfl⟩ : ∃ (p : Fin 64) (q : Fin 128), i = ix2 p q := ⟨i 0, i 1, eq_ix2 i⟩
  refine (extractStridedSlice_apply (s := S192x128) (t := S64x128) ![o, 0] W h (ix2 p q)
    (ix2 ⟨o + p.val, by have := p.isLt; omega⟩ q) fun a => ?_).trans rfl
  match a with
  | ⟨0, _⟩ => rfl
  | ⟨1, _⟩ => show q.val = 0 + q.val; omega

variable (m : (ℓ : Loc nD τ sig) → Buf (Elt Ideal) ℓ)

/-- The source rows the region finds: the node table's rows at the source index words. -/
theorem V_src (c : Dev nD) (h : InRange (m ((c : Thread nD τ).loc main_arg2))) :
    (V m c main_v0 : S1000000x64.Idx → Elt Ideal .f32)
      = gatherRows (m ((c : Thread nD τ).loc main_arg0)) (m ((c : Thread nD τ).loc main_arg2)) := by
  refine Eq.trans ?_ (take_fill gather_S50000x64_S1000000x1_S1000000x64_1_0_n_n_0_1_164 rfl rfl rfl rfl rfl
    bcast_S_S1000000 bcast_S1000000_S1000000x1_0 bcast_S_S1000000x1 bcast_S1_S1x1_1 bcast_S1x1_S1000000x1_0_1
    reducesTo_S1000000x1_S1000000_d1 h_S_ bcast_S1000000_S1000000x64_0 bcast_S_S1000000x64
    (m ((c : Thread nD τ).loc main_arg0)) (m ((c : Thread nD τ).loc main_arg2)) h)
  dsimp only [V]
  simp only [hostOps0, hostOps0_1, hostOps0_2, List.flatten_cons, List.flatten_nil, List.append_nil, List.cons_append,
    List.nil_append]
  after_results_simp
  simp only [cast_cast_cancel]
  refine (cast_eq _ _).trans ?_
  rfl

/-- The target rows the region finds: the node table's rows at the target index words. -/
theorem V_dst (c : Dev nD) (h : InRange (m ((c : Thread nD τ).loc main_arg3))) :
    (V m c main_v1 : S1000000x64.Idx → Elt Ideal .f32)
      = gatherRows (m ((c : Thread nD τ).loc main_arg0)) (m ((c : Thread nD τ).loc main_arg3)) := by
  refine Eq.trans ?_ (take_fill gather_S50000x64_S1000000x1_S1000000x64_1_0_n_n_0_1_164 rfl rfl rfl rfl rfl
    bcast_S_S1000000 bcast_S1000000_S1000000x1_0 bcast_S_S1000000x1 bcast_S1_S1x1_1 bcast_S1x1_S1000000x1_0_1
    reducesTo_S1000000x1_S1000000_d1 h_S_ bcast_S1000000_S1000000x64_0 bcast_S_S1000000x64
    (m ((c : Thread nD τ).loc main_arg0)) (m ((c : Thread nD τ).loc main_arg3)) h)
  dsimp only [V]
  simp only [hostOps0, hostOps0_1, hostOps0_2, List.flatten_cons, List.flatten_nil, List.append_nil, List.cons_append,
    List.nil_append]
  after_results_simp
  simp only [cast_cast_cancel]
  refine (cast_eq _ _).trans ?_
  rfl

/-- The first weight matrix's rows 0 … 63. -/
theorem V_ws (c : Dev nD) :
    (V m c main_v2 : S64x128.Idx → Elt Ideal .f32) = rowsFrom 0 (by omega) (m ((c : Thread nD τ).loc main_arg4)) := by
  refine Eq.trans ?_ (slice_rows 0 (by omega) (m ((c : Thread nD τ).loc main_arg4)) slices_S192x128_S64x128_0_0)
  dsimp only [V]
  simp only [hostOps0, hostOps0_1, hostOps0_2, List.flatten_cons, List.flatten_nil, List.append_nil, List.cons_append,
    List.nil_append]
  after_results_simp <;> rfl

/-- The first weight matrix's rows 64 … 127. -/
theorem V_wd (c : Dev nD) :
    (V m c main_v3 : S64x128.Idx → Elt Ideal .f32) = rowsFrom 64 (by omega) (m ((c : Thread nD τ).loc main_arg4)) := by
  refine Eq.trans ?_ (slice_rows 64 (by omega) (m ((c : Thread nD τ).loc main_arg4)) slices_S192x128_S64x128_64_0)
  dsimp only [V]
  simp only [hostOps0, hostOps0_1, hostOps0_2, List.flatten_cons, List.flatten_nil, List.append_nil, List.cons_append,
    List.nil_append]
  after_results_simp <;> rfl

/-- The first weight matrix's rows 128 … 191. -/
theorem V_we (c : Dev nD) :
    (V m c main_v4 : S64x128.Idx → Elt Ideal .f32) = rowsFrom 128 (by omega) (m ((c : Thread nD τ).loc main_arg4)) := by
  refine Eq.trans ?_ (slice_rows 128 (by omega) (m ((c : Thread nD τ).loc main_arg4)) slices_S192x128_S64x128_128_0)
  dsimp only [V]
  simp only [hostOps0, hostOps0_1, hostOps0_2, List.flatten_cons, List.flatten_nil, List.append_nil, List.cons_append,
    List.nil_append]
  after_results_simp <;> rfl

end Cert.KernelIdeal.Arrays

end
-- ==== Proof.KernelBlock.lean ====
/-
  One block of edges through the kernel body is the edge network on the block.

  The body takes a block of 8000 rows of each of the three feature matrices and the whole weight and bias arrays.
  Read at the extended reals its roundings to a shorter float format are the identity, its three products into a
  zero accumulator are plain matrix products, the one-row casts broadcast down the rows add a bias row, and its
  softplus is Spec's: the stored value is the network of Spec on the block.
-/
import proofs.«407755_j44590350467103_1_alg».proof.Proof.Spec
import proofs.«407755_j44590350467103_1_alg».proof.Proof.Gen.KernelIdeal.Skeleton
import Idealize.ShloMosaic.Lib.Pipeline.Value

noncomputable section

namespace Cert.KernelIdeal.Block

open Cert.KernelIdeal Cert.KernelIdeal.Gen Idealize.ShloMosaic Idealize.ShloMosaic.ValueIdx DenseRows EdgeMlp

/-- The product accumulated into the zero splat is the matrix product, whatever the operands' float formats (an
    extended real has no format). -/
theorem matmul_plain_eq_mm_any {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant (⟨2, ![m, n]⟩ : Shape) .f32 0x00000000#32)
      = mm (m := m) (k := k) (n := n) A B := by
  refine (matmul_zero_eq_dotGeneral _ prec A B).trans ?_
  funext i
  obtain ⟨a, b, rfl⟩ : ∃ (a : Fin m) (b : Fin n), i = ix2 a b := ⟨i 0, i 1, eq_ix2 i⟩
  exact StackMember.dotGeneral_plain_apply prec A B a b

theorem dotA : dot_S8000x64_S64x128_S8000x128_1_0_0_1_n_n = DotDims.plain 8000 64 128 := rfl
theorem dotB : dot_S8000x128_S128x64_S8000x64_1_0_0_1_n_n = DotDims.plain 8000 128 64 := rfl

/-- The body's stored value, from the nine loaded blocks, is the network on them. -/
theorem payload_eq (x0 x1 x2 : Vec Ideal S8000x64 .f32) (x3 x4 x5 : Vec Ideal S64x128 .f32) (x6 : Vec Ideal S128 .f32)
    (x7 : Vec Ideal S128x64 .f32) (x8 : Vec Ideal S64 .f32) :
    k0_pay1 (F := Ideal) (k0_pay2 (F := Ideal) x0 x1 x2 x3 x4 x5 x6) x7 x8 = mlp x0 x1 x2 x3 x4 x5 x6 x7 x8 := by
  unfold k0_pay1 k0_pay2
  dsimp only
  simp only [shapeCast_self, dotA, dotB, matmul_plain_eq_mm_any, shapeCast_asRow, bias_vector_form]
  rw [softplus_vector_form]
  rfl

end Cert.KernelIdeal.Block

end
-- ==== Proof.KernelValue.lean ====
/-
  The kernel's result array is the edge network of the arrays the region finds.

  Grid point t stages rows 8000 t … 8000 t + 7999 of the three feature matrices and the whole of the weight and bias
  arrays, and writes back rows 8000 t … 8000 t + 7999 of the result.  What it writes is the network on the staged
  blocks; the network is row-local, so that is the same rows of the network on the whole matrices.  The 125 blocks
  tile the million rows, so the array ends holding the network of the whole matrices.
-/
import proofs.«407755_j44590350467103_1_alg».proof.Proof.Spec
import proofs.«407755_j44590350467103_1_alg».proof.Proof.KernelBlock
import proofs.«407755_j44590350467103_1_alg».proof.Proof.Gen.KernelIdeal.Value
import Idealize.ShloMosaic.Lib.Pipeline.Value

noncomputable section

open Idealize.ShloMosaic Idealize.ShloMosaic.TcCoe Idealize.SL.Sem
open Idealize.ShloMosaic.Pipeline (Dat)

namespace Cert.KernelIdeal.Net

open Cert.KernelIdeal Cert.KernelIdeal.Gen Cert.KernelIdeal.Value Idealize.ShloMosaic.ValueIdx DenseRows EdgeMlp

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the 125 grid points: the three feature windows and the result window are at row
    block t, column block 0; the weight and bias windows are at block 0 throughout. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0) :=
  (by decide +kernel : ∀ t : Fin grid0.N, _)

/-- Row p of point t's block of a million-row array staged by window 0 is row 8000 t + p of the array. -/
theorem read_rows0 (A : S1000000x64.Idx → Elt Ideal .f32) (t : Fin cfg0.N) (p : Fin 8000) (q : Fin 64) (P : Fin 1000000)
    (hP : P.val = t.val * 8000 + p.val) :
    (((cfg0.win 0).blk t).view.read (Elt Ideal) A : S8000x64.Idx → Elt Ideal .f32) (ix2 p q) = A (ix2 P q) := by
  have e := (idx_facts t).1
  rw [View.read_apply]
  refine congrArg A ?_
  funext a
  apply Fin.ext
  match a with
  | ⟨0, _⟩ => show win0_0.index t 0 * 8000 + 1 * p.val = P.val; rw [e.1, hP]; omega
  | ⟨1, _⟩ => show win0_0.index t 1 * 64 + 1 * q.val = q.val; rw [e.2]; omega

/-- Row p of point t's block of a million-row array staged by window 1 is row 8000 t + p of the array. -/
theorem read_rows1 (A : S1000000x64.Idx → Elt Ideal .f32) (t : Fin cfg0.N) (p : Fin 8000) (q : Fin 64) (P : Fin 1000000)
    (hP : P.val = t.val * 8000 + p.val) :
    (((cfg0.win 1).blk t).view.read (Elt Ideal) A : S8000x64.Idx → Elt Ideal .f32) (ix2 p q) = A (ix2 P q) := by
  have e := (idx_facts t).2.1
  rw [View.read_apply]
  refine congrArg A ?_
  funext a
  apply Fin.ext
  match a with
  | ⟨0, _⟩ => show win0_1.index t 0 * 8000 + 1 * p.val = P.val; rw [e.1, hP]; omega
  | ⟨1, _⟩ => show win0_1.index t 1 * 64 + 1 * q.val = q.val; rw [e.2]; omega

/-- Row p of point t's block of a million-row array staged by window 2 is row 8000 t + p of the array. -/
theorem read_rows2 (A : S1000000x64.Idx → Elt Ideal .f32) (t : Fin cfg0.N) (p : Fin 8000) (q : Fin 64) (P : Fin 1000000)
    (hP : P.val = t.val * 8000 + p.val) :
    (((cfg0.win 2).blk t).view.read (Elt Ideal) A : S8000x64.Idx → Elt Ideal .f32) (ix2 p q) = A (ix2 P q) := by
  have e := (idx_facts t).2.2.1
  rw [View.read_apply]
  refine congrArg A ?_
  funext a
  apply Fin.ext
  match a with
  | ⟨0, _⟩ => show win0_2.index t 0 * 8000 + 1 * p.val = P.val; rw [e.1, hP]; omega
  | ⟨1, _⟩ => show win0_2.index t 1 * 64 + 1 * q.val = q.val; rw [e.2]; omega

/-- Window 3 stages its whole array at every point. -/
theorem read_whole3 (A : S64x128.Idx → Elt Ideal .f32) (t : Fin cfg0.N) :
    (((cfg0.win 3).blk t).view.read (Elt Ideal) A : S64x128.Idx → Elt Ideal .f32) = A := by
  have e := (idx_facts t).2.2.2.1
  funext y
  rw [View.read_apply]
  refine congrArg A ?_
  funext a
  apply Fin.ext
  match a with
  | ⟨0, _⟩ => show win0_3.index t 0 * 64 + 1 * (y 0).val = (y 0).val; rw [e.1]; omega
  | ⟨1, _⟩ => show win0_3.index t 1 * 128 + 1 * (y 1).val = (y 1).val; rw [e.2]; omega

/-- Window 4 stages its whole array at every point. -/
theorem read_whole4 (A : S64x128.Idx → Elt Ideal .f32) (t : Fin cfg0.N) :
    (((cfg0.win 4).blk t).view.read (Elt Ideal) A : S64x128.Idx → Elt Ideal .f32) = A := by
  have e := (idx_facts t).2.2.2.2.1
  funext y
  rw [View.read_apply]
  refine congrArg A ?_
  funext a
  apply Fin.ext
  match a with
  | ⟨0, _⟩ => show win0_4.index t 0 * 64 + 1 * (y 0).val = (y 0).val; rw [e.1]; omega
  | ⟨1, _⟩ => show win0_4.index t 1 * 128 + 1 * (y 1).val = (y 1).val; rw [e.2]; omega

/-- Window 5 stages its whole array at every point. -/
theorem read_whole5 (A : S64x128.Idx → Elt Ideal .f32) (t : Fin cfg0.N) :
    (((cfg0.win 5).blk t).view.read (Elt Ideal) A : S64x128.Idx → Elt Ideal .f32) = A := by
  have e := (idx_facts t).2.2.2.2.2.1
  funext y
  rw [View.read_apply]
  refine congrArg A ?_
  funext a
  apply Fin.ext
  match a with
  | ⟨0, _⟩ => show win0_5.index t 0 * 64 + 1 * (y 0).val = (y 0).val; rw [e.1]; omega
  | ⟨1, _⟩ => show win0_5.index t 1 * 128 + 1 * (y 1).val = (y 1).val; rw [e.2]; omega

/-- Window 6 stages its whole array at every point. -/
theorem read_whole6 (A : S128.Idx → Elt Ideal .f32) (t : Fin cfg0.N) :
    (((cfg0.win 6).blk t).view.read (Elt Ideal) A : S128.Idx → Elt Ideal .f32) = A := by
  have e := (idx_facts t).2.2.2.2.2.2.1
  funext y
  rw [View.read_apply]
  refine congrArg A ?_
  funext a
  apply Fin.ext
  match a with
  | ⟨0, _⟩ => show win0_6.index t 0 * 128 + 1 * (y 0).val = (y 0).val; rw [e]; omega

/-- Window 7 stages its whole array at every point. -/
theorem read_whole7 (A : S128x64.Idx → Elt Ideal .f32) (t : Fin cfg0.N) :
    (((cfg0.win 7).blk t).view.read (Elt Ideal) A : S128x64.Idx → Elt Ideal .f32) = A := by
  have e := (idx_facts t).2.2.2.2.2.2.2.1
  funext y
  rw [View.read_apply]
  refine congrArg A ?_
  funext a
  apply Fin.ext
  match a with
  | ⟨0, _⟩ => show win0_7.index t 0 * 128 + 1 * (y 0).val = (y 0).val; rw [e.1]; omega
  | ⟨1, _⟩ => show win0_7.index t 1 * 64 + 1 * (y 1).val = (y 1).val; rw [e.2]; omega

/-- Window 8 stages its whole array at every point. -/
theorem read_whole8 (A : S64.Idx → Elt Ideal .f32) (t : Fin cfg0.N) :
    (((cfg0.win 8).blk t).view.read (Elt Ideal) A : S64.Idx → Elt Ideal .f32) = A := by
  have e := (idx_facts t).2.2.2.2.2.2.2.2.1
  funext y
  rw [View.read_apply]
  refine congrArg A ?_
  funext a
  apply Fin.ext
  match a with
  | ⟨0, _⟩ => show win0_8.index t 0 * 64 + 1 * (y 0).val = (y 0).val; rw [e]; omega

/-- One point, with the staged arrays arbitrary: the body's stored value at row p, from the blocks that point t stages
    of nine arrays, is row 8000 t + p of the network of the nine arrays. -/
theorem block_net (A0 A1 A2 : S1000000x64.Idx → Elt Ideal .f32) (A3 A4 A5 : S64x128.Idx → Elt Ideal .f32)
    (A6 : S128.Idx → Elt Ideal .f32) (A7 : S128x64.Idx → Elt Ideal .f32) (A8 : S64.Idx → Elt Ideal .f32)
    (t : Fin cfg0.N) (p : Fin 8000) (q : Fin 64) (P : Fin 1000000) (hP : P.val = t.val * 8000 + p.val) :
    k0_pay1 (F := Ideal)
      (k0_pay2 (F := Ideal)
        (((cfg0.win 0).blk t).view.read (Elt Ideal) A0 : S8000x64.Idx → Elt Ideal .f32)
        (((cfg0.win 1).blk t).view.read (Elt Ideal) A1 : S8000x64.Idx → Elt Ideal .f32)
        (((cfg0.win 2).blk t).view.read (Elt Ideal) A2 : S8000x64.Idx → Elt Ideal .f32)
        (((cfg0.win 3).blk t).view.read (Elt Ideal) A3 : S64x128.Idx → Elt Ideal .f32)
        (((cfg0.win 4).blk t).view.read (Elt Ideal) A4 : S64x128.Idx → Elt Ideal .f32)
        (((cfg0.win 5).blk t).view.read (Elt Ideal) A5 : S64x128.Idx → Elt Ideal .f32)
        (((cfg0.win 6).blk t).view.read (Elt Ideal) A6 : S128.Idx → Elt Ideal .f32))
      (((cfg0.win 7).blk t).view.read (Elt Ideal) A7 : S128x64.Idx → Elt Ideal .f32)
      (((cfg0.win 8).blk t).view.read (Elt Ideal) A8 : S64.Idx → Elt Ideal .f32) (ix2 p q)
      = mlp A0 A1 A2 A3 A4 A5 A6 A7 A8 (ix2 P q) := by
  rw [read_whole3 A3 t, read_whole4 A4 t, read_whole5 A5 t, read_whole6 A6 t, read_whole7 A7 t, read_whole8 A8 t]
  refine (congrFun (Block.payload_eq _ _ _ A3 A4 A5 A6 A7 A8) (ix2 p q)).trans ?_
  exact mlp_rows _ _ _ A0 A1 A2 A3 A4 A5 A6 A7 A8 p P (fun c' => read_rows0 A0 t p c' P hP)
    (fun c' => read_rows1 A1 t p c' P hP) (fun c' => read_rows2 A2 t p c' P hP) q

/-- One point, with the staged arrays arbitrary: what the body leaves in the result window's buffer, from the blocks
    that point t stages of nine arrays, is rows 8000 t … 8000 t + 7999 of the network of the nine arrays. -/
theorem flushed_core (A0 A1 A2 : S1000000x64.Idx → Elt Ideal .f32) (A3 A4 A5 : S64x128.Idx → Elt Ideal .f32)
    (A6 : S128.Idx → Elt Ideal .f32) (A7 : S128x64.Idx → Elt Ideal .f32) (A8 : S64.Idx → Elt Ideal .f32)
    (t : Fin cfg0.N) :
    (cfg0.win 9).cut (grid0.coords t) (k0_pay1 (F := Ideal)
      (k0_pay2 (F := Ideal)
        (((cfg0.win 0).blk t).view.read (Elt Ideal) A0 : S8000x64.Idx → Elt Ideal .f32)
        (((cfg0.win 1).blk t).view.read (Elt Ideal) A1 : S8000x64.Idx → Elt Ideal .f32)
        (((cfg0.win 2).blk t).view.read (Elt Ideal) A2 : S8000x64.Idx → Elt Ideal .f32)
        (((cfg0.win 3).blk t).view.read (Elt Ideal) A3 : S64x128.Idx → Elt Ideal .f32)
        (((cfg0.win 4).blk t).view.read (Elt Ideal) A4 : S64x128.Idx → Elt Ideal .f32)
        (((cfg0.win 5).blk t).view.read (Elt Ideal) A5 : S64x128.Idx → Elt Ideal .f32)
        (((cfg0.win 6).blk t).view.read (Elt Ideal) A6 : S128.Idx → Elt Ideal .f32))
      (((cfg0.win 7).blk t).view.read (Elt Ideal) A7 : S128x64.Idx → Elt Ideal .f32)
      (((cfg0.win 8).blk t).view.read (Elt Ideal) A8 : S64.Idx → Elt Ideal .f32))
      = ((cfg0.win 9).blk t).view.read (Elt Ideal) (mlp A0 A1 A2 A3 A4 A5 A6 A7 A8 : S1000000x64.Idx → Elt Ideal .f32) := by
  funext j
  obtain ⟨p, q, rfl⟩ : ∃ (p : Fin 8000) (q : Fin 64), j = ix2 p q := ⟨j 0, j 1, eq_ix2 j⟩
  have hN : cfg0.N = 125 := N_0
  have hP : t.val * 8000 + p.val < 1000000 := by have := t.isLt; omega
  have e9 := (idx_facts t).2.2.2.2.2.2.2.2.2
  have hemb : ((cfg0.win 9).blk t).view.emb (ix2 p q) = ix2 (⟨t.val * 8000 + p.val, hP⟩ : Fin 1000000) q := by
    funext a
    apply Fin.ext
    match a with
    | ⟨0, _⟩ => show win0_9.index t 0 * 8000 + 1 * p.val = t.val * 8000 + p.val; rw [e9.1]; omega
    | ⟨1, _⟩ => show win0_9.index t 1 * 64 + 1 * q.val = q.val; rw [e9.2]; omega
  refine (block_net A0 A1 A2 A3 A4 A5 A6 A7 A8 t p q ⟨t.val * 8000 + p.val, hP⟩ rfl).trans ?_
  show mlp A0 A1 A2 A3 A4 A5 A6 A7 A8 (ix2 (⟨t.val * 8000 + p.val, hP⟩ : Fin 1000000) q)
    = mlp A0 A1 A2 A3 A4 A5 A6 A7 A8 (((cfg0.win 9).blk t).view.emb (ix2 p q))
  rw [hemb]

/-- The network of the arrays the region finds. -/
abbrev net (c : Dev nD) : S1000000x64.Idx → Elt Ideal .f32 :=
  mlp (V m c main_v0) (V m c main_v1) (V m c main_arg1) (V m c main_v2) (V m c main_v3) (V m c main_v4)
    (V m c main_arg5) (V m c main_arg6) (V m c main_arg7)

/-- What point t writes back is rows 8000 t … 8000 t + 7999 of the network of the whole arrays. -/
theorem flushed_eq (c : Dev nD) (t : Fin cfg0.N) :
    (dats m 0 c).flushed 9 t = ((cfg0.win 9).blk t).view.read (Elt Ideal) (net m c) := by
  show (cfg0.win 9).cut (grid0.coords t) ((dats m 0 c).after 9 t) = _
  rw [after0_9]
  unfold out0_9
  rw [View.canon_unit_zero hz2]
  simp only [View.ld_unit_zero (S := S8000x64) hz2, View.ld_unit_zero (S := S64x128) hz2, View.ld_unit_zero (S := S128) hz1,
    View.ld_unit_zero (S := S128x64) hz2, View.ld_unit_zero (S := S64) hz1]
  exact flushed_core (V m c main_v0) (V m c main_v1) (V m c main_arg1) (V m c main_v2) (V m c main_v3) (V m c main_v4)
    (V m c main_arg5) (V m c main_arg6) (V m c main_arg7) t
/-- The 125 blocks tile the million rows: the result array ends holding the network of the whole arrays. -/
theorem final (c : Dev nD) : (dats m 0 c).arrAt 9 cfg0.N = net m c :=
  (dats m 0 c).arrAt_eq_of_cover 9 (net m c) (fun t _ => flushed_eq m c t) fun i => by
    have hi0 : (i 0).val < 1000000 := (i 0).isLt
    have hi1 : (i 1).val < 64 := (i 1).isLt
    have hN : cfg0.N = 125 := N_0
    have ht : (i 0).val / 8000 < cfg0.N := by rw [hN]; omega
    have e9 := (idx_facts ⟨(i 0).val / 8000, ht⟩).2.2.2.2.2.2.2.2.2
    refine ⟨⟨(i 0).val / 8000, ht⟩, flush0_9 _, ?_⟩
    show i ∈ ((View.whole main_v5).slice (win0_9.rect ⟨(i 0).val / 8000, ht⟩)).set
    rw [View.set_slice_whole, Rect.mem_set_unit]
    intro a
    match a with
    | ⟨0, _⟩ =>
      show win0_9.index ⟨(i 0).val / 8000, ht⟩ 0 * 8000 ≤ (i 0).val
        ∧ (i 0).val < win0_9.index ⟨(i 0).val / 8000, ht⟩ 0 * 8000 + 8000
      rw [e9.1]
      show (i 0).val / 8000 * 8000 ≤ (i 0).val ∧ (i 0).val < (i 0).val / 8000 * 8000 + 8000
      omega
    | ⟨1, _⟩ =>
      show win0_9.index ⟨(i 0).val / 8000, ht⟩ 1 * 64 ≤ (i 1).val
        ∧ (i 1).val < win0_9.index ⟨(i 0).val / 8000, ht⟩ 1 * 64 + 64
      rw [e9.2]
      omega

/-- The run, read: the result array at the network of the arrays the region finds, the arguments unchanged. -/
theorem run : θ_run defs (onTc (τ := τ) (main (F := Ideal))) ⟨m, fun _ => 0, ρ⟩ fun r => ∀ c : Dev nD,
      r.2.mem ((c : Thread nD τ).loc main_v5) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Net

end
-- ==== Proof.RefValue.lean ====
/-
  The reference program's result is the edge network of the gathered rows.

  Its term is: the two clamping gathers of the wrapped index columns and the edge features laid side by side as a
  192-column matrix, times the 192 × 128 weight matrix, plus the bias row, through softplus (the host's spelling),
  times the second weight matrix, plus the second bias row.  The 192-term contraction splits into the three 64-term
  ones (Spec, mm_thirds), which makes it the network of Spec on the three 64-column matrices and the three 64-row
  blocks of the first weight matrix.
-/
import proofs.«407755_j44590350467103_1_alg».proof.Proof.Spec
import proofs.«407755_j44590350467103_1_alg».proof.Proof.Index
import proofs.«407755_j44590350467103_1_alg».proof.Proof.Ranges
import proofs.«407755_j44590350467103_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem DenseRows EdgeMlp

/-- The first contraction's dimension numbers are those of a plain matrix product. -/
private theorem dot1 : dot_S1000000x192_S192x128_S1000000x128_1_0_0_1_n_n = DotDims.plain 1000000 192 128 := rfl

/-- The second contraction's dimension numbers are those of a plain matrix product. -/
private theorem dot2 : dot_S1000000x128_S128x64_S1000000x64_1_0_0_1_n_n = DotDims.plain 1000000 128 64 := rfl

/-- Columns 0 … 63 of three 64-column matrices laid side by side are the first matrix. -/
private theorem cat_first (u0 u1 u2 : Mat 1000000 64) (a : Fin 1000000) (k : Fin 64) (k' : Fin 192)
    (hk : k'.val = k.val) :
    concatenate S1000000x192 1 [⟨S1000000x64, u0⟩, ⟨S1000000x64, u1⟩, ⟨S1000000x64, u2⟩]
      concatenates_S1000000x64_S1000000x64_S1000000x64_S1000000x192_d1 (ix2 a k') = u0 (ix2 a k) :=
  concatenate_apply_piece (t := S1000000x192) (1 : Fin 2) [⟨S1000000x64, u0⟩, ⟨S1000000x64, u1⟩, ⟨S1000000x64, u2⟩]
    concatenates_S1000000x64_S1000000x64_S1000000x64_S1000000x192_d1 (ix2 a k') 0 (by simp) S1000000x64 u0 rfl rfl 0
    rfl (ix2 a k)
    (fun b hb => by
      match b with
      | ⟨0, _⟩ => rfl
      | ⟨1, _⟩ => exact absurd rfl hb)
    (by show 0 + k.val = k'.val; omega)

/-- Columns 64 … 127 are the second matrix. -/
private theorem cat_second (u0 u1 u2 : Mat 1000000 64) (a : Fin 1000000) (k : Fin 64) (k' : Fin 192)
    (hk : k'.val = 64 + k.val) :
    concatenate S1000000x192 1 [⟨S1000000x64, u0⟩, ⟨S1000000x64, u1⟩, ⟨S1000000x64, u2⟩]
      concatenates_S1000000x64_S1000000x64_S1000000x64_S1000000x192_d1 (ix2 a k') = u1 (ix2 a k) :=
  concatenate_apply_piece (t := S1000000x192) (1 : Fin 2) [⟨S1000000x64, u0⟩, ⟨S1000000x64, u1⟩, ⟨S1000000x64, u2⟩]
    concatenates_S1000000x64_S1000000x64_S1000000x64_S1000000x192_d1 (ix2 a k') 1 (by simp) S1000000x64 u1 rfl rfl 64
    rfl (ix2 a k)
    (fun b hb => by
      match b with
      | ⟨0, _⟩ => rfl
      | ⟨1, _⟩ => exact absurd rfl hb)
    (by show 64 + k.val = k'.val; omega)

/-- Columns 128 … 191 are the third matrix. -/
private theorem cat_third (u0 u1 u2 : Mat 1000000 64) (a : Fin 1000000) (k : Fin 64) (k' : Fin 192)
    (hk : k'.val = 128 + k.val) :
    concatenate S1000000x192 1 [⟨S1000000x64, u0⟩, ⟨S1000000x64, u1⟩, ⟨S1000000x64, u2⟩]
      concatenates_S1000000x64_S1000000x64_S1000000x64_S1000000x192_d1 (ix2 a k') = u2 (ix2 a k) :=
  concatenate_apply_piece (t := S1000000x192) (1 : Fin 2) [⟨S1000000x64, u0⟩, ⟨S1000000x64, u1⟩, ⟨S1000000x64, u2⟩]
    concatenates_S1000000x64_S1000000x64_S1000000x64_S1000000x192_d1 (ix2 a k') 2 (by simp) S1000000x64 u2 rfl rfl 128
    rfl (ix2 a k)
    (fun b hb => by
      match b with
      | ⟨0, _⟩ => rfl
      | ⟨1, _⟩ => exact absurd rfl hb)
    (by show 128 + k.val = k'.val; omega)

/-- Row k' of the weight matrix, k' = o + k, is row k of its block from row o on. -/
private theorem rowsFrom_read (o : Nat) (ho : o + 64 ≤ 192) (W : Mat 192 128) (k : Fin 64) (k' : Fin 192) (b : Fin 128)
    (hk : k'.val = o + k.val) : W (ix2 k' b) = rowsFrom o ho W (ix2 k b) := by
  obtain ⟨kv, hkv⟩ := k'
  have hk' : kv = o + k.val := hk
  subst hk'
  rfl

/-- The last stage of the reference, as a function of the arguments, is the network of the gathered rows. -/
theorem stage_eq (x0 : (⟨S50000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) :
    val_main_v23 (F := Ideal) x0 x1 x2 x3 x4 x5 x6 x7
      = mlp (gatherRows x0 x2) (gatherRows x0 x3) x1 (rowsFrom 0 (by omega) x4) (rowsFrom 64 (by omega) x4)
          (rowsFrom 128 (by omega) x4) x5 x6 x7 := by
  -- the two gathers
  have h6 : val_main_v6 (F := Ideal) x0 x2 = gatherRows x0 x2 :=
    gather_wrapCol gather_S50000x64_S1000000x1_S1000000x64_1_0_n_n_0_1_164 rfl rfl rfl rfl rfl
      bcast_S_S1000000 bcast_S1000000_S1000000x1_0 x0 x2
  have h13 : val_main_v13 (F := Ideal) x0 x3 = gatherRows x0 x3 :=
    gather_wrapCol gather_S50000x64_S1000000x1_S1000000x64_1_0_n_n_0_1_164 rfl rfl rfl rfl rfl
      bcast_S_S1000000 bcast_S1000000_S1000000x1_0 x0 x3
  -- the first product, in thirds
  have h15 : val_main_v15 (F := Ideal) x0 x1 x2 x3 x4
      = mm3 (gatherRows x0 x2) (gatherRows x0 x3) x1 (rowsFrom 0 (by omega) x4) (rowsFrom 64 (by omega) x4)
          (rowsFrom 128 (by omega) x4) := by
    unfold val_main_v15
    rw [dot1]
    refine (dotGeneral_plain_eq_mm none _ x4).trans ?_
    refine mm_thirds _ _ _ _ x4 _ _ _ ?_ ?_ ?_ ?_ ?_ ?_
    · intro a k k' hk
      unfold val_main_v14
      rw [h6, h13]
      exact cat_first _ _ _ a k k' hk
    · intro a k k' hk
      unfold val_main_v14
      rw [h6, h13]
      exact cat_second _ _ _ a k k' hk
    · intro a k k' hk
      unfold val_main_v14
      rw [h6, h13]
      exact cat_third _ _ _ a k k' hk
    · intro k k' b hk
      exact rowsFrom_read 0 _ x4 k k' b (by omega)
    · intro k k' b hk
      exact rowsFrom_read 64 _ x4 k k' b hk
    · intro k k' b hk
      exact rowsFrom_read 128 _ x4 k k' b hk
  -- the first bias row
  have h18 : val_main_v18 (F := Ideal) x0 x1 x2 x3 x4 x5
      = addRow (mm3 (gatherRows x0 x2) (gatherRows x0 x3) x1 (rowsFrom 0 (by omega) x4) (rowsFrom 64 (by omega) x4)
          (rowsFrom 128 (by omega) x4)) (asRow x5) := by
    unfold val_main_v18 val_main_v17 val_main_v16
    rw [h15, broadcastInDim_asRow x5 bcast_S128_S1x128_1]
    exact bias_host_form _ _ bcast_S1x128_S1000000x128_0_1
  -- softplus
  have h19 : val_main_v19 (F := Ideal) x0 x1 x2 x3 x4 x5
      = softplus (addRow (mm3 (gatherRows x0 x2) (gatherRows x0 x3) x1 (rowsFrom 0 (by omega) x4)
          (rowsFrom 64 (by omega) x4) (rowsFrom 128 (by omega) x4)) (asRow x5)) := by
    unfold val_main_v19 val_main_call0_v4 val_main_call0_v6 val_main_call0_v11 val_main_call0_v1 val_main_call0_v10
      val_main_call0_v9 val_main_call0_v8 val_main_call0_v7 val_main_call0_v3 val_main_call0_v0 val_main_call0_v2
      val_main_call0_v5 val_main_call0_cst
    rw [h18]
    exact softplus_host_form _ bcast_S_S1000000x128
  -- the second product
  have h20 : val_main_v20 (F := Ideal) x0 x1 x2 x3 x4 x5 x6
      = mm (softplus (addRow (mm3 (gatherRows x0 x2) (gatherRows x0 x3) x1 (rowsFrom 0 (by omega) x4)
          (rowsFrom 64 (by omega) x4) (rowsFrom 128 (by omega) x4)) (asRow x5))) x6 := by
    unfold val_main_v20
    rw [h19, dot2]
    exact dotGeneral_plain_eq_mm none _ x6
  -- the second bias row
  unfold val_main_v23 val_main_v22 val_main_v21
  rw [h20, broadcastInDim_asRow x7 bcast_S64_S1x64_1]
  exact bias_host_form _ _ bcast_S1x64_S1000000x64_0_1

end Cert.ReferenceIdeal.RefValue

end
-- ==== Proof.lean ====
/-
  The edge network of a graph layer, kernel against reference, over the extended reals.

  Both programs gather, for each of a million edges, the feature rows of the edge's source and target nodes from a
  50000-row table (an index word below zero counts from the table's end), and send the two rows and the edge's own
  64 features through a two-layer perceptron: a 192 × 128 weight matrix and a bias, softplus, a 128 × 64 weight
  matrix and a bias.  The reference lays the three rows side by side and contracts over 192 terms; the kernel cuts
  the weight matrix into three 64-row blocks, contracts three times over 64 terms and adds, 8000 edges per grid
  point.  A finite sum regrouped is the same sum on the extended reals, so the two results are equal entry by entry.

  The kernel's gather replaces a row whose wrapped index word is not a row number by a filler, where the reference's
  gather clamps; the precondition states that every index word w has -50000 ≤ w < 50000, and then every wrapped word
  is a row number: no filler, nothing to clamp.  The float inputs' finiteness is not used: the regrouping needs no
  cancellation.

  The kernel's frame is the generated one; the reference's is its generated run with the result dropped; the
  idealized kernel is the kernel's own text read at the extended reals (no rewrite was applied).
-/
import proofs.«407755_j44590350467103_1_alg».proof.Defs
import proofs.«407755_j44590350467103_1_alg».proof.Proof.Gen.Kernel
import proofs.«407755_j44590350467103_1_alg».proof.Proof.Gen.Kernel.Skeleton
import proofs.«407755_j44590350467103_1_alg».proof.Proof.Gen.Kernel.Launch
import proofs.«407755_j44590350467103_1_alg».proof.Proof.Gen.Kernel.Points
import proofs.«407755_j44590350467103_1_alg».proof.Proof.Gen.Kernel.Frame
import proofs.«407755_j44590350467103_1_alg».proof.Proof.Gen.KernelIdeal
import proofs.«407755_j44590350467103_1_alg».proof.Proof.Gen.KernelIdeal.Skeleton
import proofs.«407755_j44590350467103_1_alg».proof.Proof.Gen.KernelIdeal.Launch
import proofs.«407755_j44590350467103_1_alg».proof.Proof.Gen.KernelIdeal.Points
import proofs.«407755_j44590350467103_1_alg».proof.Proof.Gen.KernelIdeal.Frame
import proofs.«407755_j44590350467103_1_alg».proof.Proof.Gen.ReferenceIdeal
import proofs.«407755_j44590350467103_1_alg».proof.Proof.Gen.Pre_finite_inputs
import proofs.«407755_j44590350467103_1_alg».proof.Proof.Gen.KernelIdeal.Value
import proofs.«407755_j44590350467103_1_alg».proof.Proof.Gen.ReferenceIdeal.Run
import proofs.«407755_j44590350467103_1_alg».proof.Proof.Gen.ReferenceIdeal.Read
import proofs.«407755_j44590350467103_1_alg».proof.Proof.PreDecode
import proofs.«407755_j44590350467103_1_alg».proof.Proof.KernelArrays
import proofs.«407755_j44590350467103_1_alg».proof.Proof.KernelValue
import proofs.«407755_j44590350467103_1_alg».proof.Proof.RefValue
import Idealize.ShloMosaic.Adequacy
import Idealize.ShloMosaic.Init

noncomputable section

namespace Cert.Proof

open Idealize.ShloMosaic Idealize.ShloMosaic.TcCoe Idealize.SL.Sem EdgeMlp

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- With the index words in range, the network of the arrays the kernel's region finds is the network the reference
    computes from arguments that agree. -/
theorem algebraic : Cert.algebraic_KernelIdeal_ReferenceIdeal := by
  intro m ρ m' ρ' hpre hagree
  refine ⟨fun c => Cert.KernelIdeal.Net.net m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨hsrc, hdst⟩ := pre_inRange _ _ _ _ _ _ _ _ (hpre c)
  rw [Cert.ReferenceIdeal.Read.val_main_v23_eq, Cert.ReferenceIdeal.RefValue.stage_eq]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  show _ = mlp (Cert.KernelIdeal.Gen.V m c Cert.KernelIdeal.main_v0) (Cert.KernelIdeal.Gen.V m c Cert.KernelIdeal.main_v1)
    (Cert.KernelIdeal.Gen.V m c Cert.KernelIdeal.main_arg1) (Cert.KernelIdeal.Gen.V m c Cert.KernelIdeal.main_v2)
    (Cert.KernelIdeal.Gen.V m c Cert.KernelIdeal.main_v3) (Cert.KernelIdeal.Gen.V m c Cert.KernelIdeal.main_v4)
    (Cert.KernelIdeal.Gen.V m c Cert.KernelIdeal.main_arg5) (Cert.KernelIdeal.Gen.V m c Cert.KernelIdeal.main_arg6)
    (Cert.KernelIdeal.Gen.V m c Cert.KernelIdeal.main_arg7)
  rw [Cert.KernelIdeal.Arrays.V_src m c hsrc, Cert.KernelIdeal.Arrays.V_dst m c hdst, Cert.KernelIdeal.Arrays.V_ws m c,
    Cert.KernelIdeal.Arrays.V_wd m c, Cert.KernelIdeal.Arrays.V_we m c, Cert.KernelIdeal.Gen.V_main_arg1 m c,
    Cert.KernelIdeal.Gen.V_main_arg5 m c, Cert.KernelIdeal.Gen.V_main_arg6 m c, Cert.KernelIdeal.Gen.V_main_arg7 m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
